-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The dense linear layer over the extended reals,

      y[r, o] = Σ_{k < 4096} x[r, k] · w[o, k] + b[o],

  and the one regrouping of its sum that a K-blocked product computes: the 4096 contraction indices taken in four
  consecutive runs of 1024. Addition on the extended reals is commutative and associative (it is a commutative
  monoid; only cancellation and distributivity fail at the infinities), so the regrouping holds for every input,
  finite or not.
-/
import Idealize.ShloMosaic.Lib.ValueIdx
import Idealize.ShloMosaic.PureOps.Ideal.Laws

noncomputable section

namespace Cert.DenseLinear

open Idealize.ShloMosaic Idealize.ShloMosaic.ValueIdx
open scoped BigOperators

/-- The activations' shape [8192, 4096] (also the result's), the weights' [4096, 4096], the bias's [4096]. -/
abbrev SX : Shape := ⟨2, ![8192, 4096]⟩
abbrev SW : Shape := ⟨2, ![4096, 4096]⟩
abbrev SB : Shape := ⟨1, ![4096]⟩

/-- `y[r, o] = Σ_k x[r, k] · w[o, k] + b[o]`: row `r` of the activations against row `o` of the weights, plus the bias. -/
def linear (x : SX.Idx → EReal) (w : SW.Idx → EReal) (b : SB.Idx → EReal) : SX.Idx → EReal :=
  fun j => (∑ k : Fin 4096, x (ix2 (j 0) k) * w (ix2 (j 1) k)) + b (ix1 (j 1))

/-- A matrix entry read at natural-number coordinates (zero outside the matrix, where it is never used): partial
    sums over runs of the contraction axis are stated over these, so that no bound has to be carried. -/
def at2 {R C : ℕ} (a : (⟨2, ![R, C]⟩ : Shape).Idx → EReal) (r k : ℕ) : EReal :=
  if h : r < R ∧ k < C then a (ix2 ⟨r, h.1⟩ ⟨k, h.2⟩) else 0

theorem at2_of_lt {R C : ℕ} (a : (⟨2, ![R, C]⟩ : Shape).Idx → EReal) {r k : ℕ} (hr : r < R) (hk : k < C) :
    at2 a r k = a (ix2 ⟨r, hr⟩ ⟨k, hk⟩) := dif_pos ⟨hr, hk⟩

/-- The part of `Σ_k x[r, k] · w[o, k]` that lies in the `s`-th run of 1024 contraction indices,
    `k = 1024·s … 1024·s + 1023`. -/
def partialDot (x : SX.Idx → EReal) (w : SW.Idx → EReal) (r o s : ℕ) : EReal :=
  ∑ kk : Fin 1024, at2 x r (s * 1024 + kk.val) * at2 w o (s * 1024 + kk.val)

/-- The same as a sum over a range of naturals. -/
theorem partialDot_range (x : SX.Idx → EReal) (w : SW.Idx → EReal) (r o s : ℕ) :
    partialDot x w r o s = ∑ n ∈ Finset.range 1024, at2 x r (s * 1024 + n) * at2 w o (s * 1024 + n) :=
  Fin.sum_univ_eq_sum_range (fun n : ℕ => at2 x r (s * 1024 + n) * at2 w o (s * 1024 + n)) 1024

/-- THE REGROUPING: the full contraction is the sum of its four runs' partial products. -/
theorem linear_eq_partials (x : SX.Idx → EReal) (w : SW.Idx → EReal) (b : SB.Idx → EReal) (r : Fin 8192) (o : Fin 4096) :
    linear x w b (ix2 r o) = (∑ s ∈ Finset.range 4, partialDot x w r.val o.val s) + b (ix1 o) := by
  show (∑ k : Fin 4096, x (ix2 r k) * w (ix2 o k)) + b (ix1 o) = _
  refine congrArg (· + b (ix1 o)) ?_
  have h1 : ∑ k : Fin 4096, x (ix2 r k) * w (ix2 o k)
      = ∑ k : Fin 4096, (fun n : ℕ => at2 x r.val n * at2 w o.val n) k.val :=
    Finset.sum_congr rfl fun k _ => by
      show x (ix2 r k) * w (ix2 o k) = at2 x r.val k.val * at2 w o.val k.val
      rw [at2_of_lt x r.isLt k.isLt, at2_of_lt w o.isLt k.isLt]
  rw [h1, Fin.sum_univ_eq_sum_range (fun n : ℕ => at2 x r.val n * at2 w o.val n) 4096]
  show ∑ n ∈ Finset.range (1024 + 1024 + 1024 + 1024), _ = _
  rw [Finset.sum_range_add, Finset.sum_range_add, Finset.sum_range_add]
  have four : ∀ f : ℕ → EReal, ∑ s ∈ Finset.range 4, f s = f 0 + f 1 + f 2 + f 3 := fun f => by
    rw [Finset.sum_range_succ, Finset.sum_range_succ, Finset.sum_range_succ, Finset.sum_range_one]
  rw [four]
  simp only [partialDot_range]
  norm_num

end Cert.DenseLinear

end
-- ==== Proof.RefLinear.lean ====
/-
  The reference program computes the dense linear layer: its result, read at an index, is
  `Σ_k x[r, k] · w[o, k] + b[o]` — the contraction of the activations' and the weights' second axes, then the bias
  broadcast along the rows.
-/
import proofs.«154628_j20899310862697_1_alg».proof.Proof.Gen.ReferenceIdeal.Read
import proofs.«154628_j20899310862697_1_alg».proof.Proof.Spec

noncomputable section

namespace Cert.ReferenceIdeal.IsLinear

open Cert.ReferenceIdeal Cert.ReferenceIdeal.Read Idealize.ShloMosaic Idealize.ShloMosaic.ValueIdx Cert.DenseLinear

/-- The reference's last stage is `linear` of the three arguments. -/
theorem result_eq (x : S8192x4096.Idx → EReal) (w : S4096x4096.Idx → EReal) (b : S4096.Idx → EReal) :
    val_main_v3 (F := Ideal) x w b = linear x w b := by
  funext i
  have el : ∀ k : Fin 4096, lidx_main_v0 i k = ix2 (i 0) k := fun k =>
    funext fun a => by match a with | ⟨0, _⟩ => rfl | ⟨1, _⟩ => rfl
  have er : ∀ k : Fin 4096, ridx_main_v0 i k = ix2 (i 1) k := fun k =>
    funext fun a => by match a with | ⟨0, _⟩ => rfl | ⟨1, _⟩ => rfl
  have eb : idx_main_v1 (idx_main_v2 i) = ix1 (i 1) :=
    funext fun a => by match a with | ⟨0, _⟩ => rfl
  rw [val_main_v3_apply, val_main_v0_apply, val_main_v2_apply, val_main_v1_apply, eb]
  simp only [el, er]
  rfl

end Cert.ReferenceIdeal.IsLinear

end
-- ==== Proof.Pieces.lean ====
/-
  What the body leaves, case by case, as values of what it found. A grid point (i, j, k) of the 8 × 4 × 4 grid runs
  one of three cases: at k = 0 the accumulator is reset to zero and the first block product is added into it; at
  k = 1, 2 a block product is added into what the point before left; at k = 3 the same, and then the accumulator plus
  the bias row is stored into the output block. Every store covers its whole buffer and every load reads a whole
  buffer, so each case's result is one payload of the case's inputs.
-/
import proofs.«154628_j20899310862697_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- k = 0: the accumulator ends at the first block product added to the zero block just stored (the load after the
    reset reads the reset's own store back). -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (xb : Vec F S1024x1024 .f32) (wb : Vec F S1024x1024 .f32) (bb : Vec F S1x1024 .f32) :
    sout0_A_0 c i arg3 harg3 arg4 harg4 arg5 harg5 arg6 harg6 arg7 harg7 hc0 hc1 xb wb bb = k0_pay2 xb wb (k0_pay1 (F := F)) := by
  unfold sout0_A_0
  rw [View.read_writes_eq_canon _ _ _ (scover0_A_0 c i arg3 harg3 arg4 harg4 arg5 harg5 arg6 harg6 arg7 harg7 hc0 hc1 xb wb bb)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- k = 1, 2: the accumulator ends at the block product added to what the point before left. -/
theorem acc_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (xb : Vec F S1024x1024 .f32) (wb : Vec F S1024x1024 .f32) (bb : Vec F S1x1024 .f32) (prev : Vec F S1024x1024 .f32) :
    sout0_B_0 c i arg3 harg3 arg4 harg4 arg5 harg5 arg6 harg6 arg7 harg7 hc0 hc1 xb wb bb prev = k0_pay2 xb wb prev := by
  unfold sout0_B_0
  rw [View.read_writes_eq_canon _ _ _ (scover0_B_0 c i arg3 harg3 arg4 harg4 arg5 harg5 arg6 harg6 arg7 harg7 hc0 hc1 xb wb bb prev)]
  unfold kernelRun0_B
  dsimp only
  sl_unfold_words
  rw [View.canon_unit_zero hz]
  simp only [View.readAt_eq_ld, harg3.read_unread, harg4.read_unread, harg7.read_unread, View.ld_unit_zero (S := S1024x1024) hz]

/-- k = 3: the accumulator likewise, -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (xb : Vec F S1024x1024 .f32) (wb : Vec F S1024x1024 .f32) (bb : Vec F S1x1024 .f32) (prev : Vec F S1024x1024 .f32) :
    sout0_C_0 c i arg3 harg3 arg4 harg4 arg5 harg5 arg6 harg6 arg7 harg7 hc0 hc1 xb wb bb prev = k0_pay2 xb wb prev := by
  unfold sout0_C_0
  rw [View.read_writes_eq_canon _ _ _ (scover0_C_0 c i arg3 harg3 arg4 harg4 arg5 harg5 arg6 harg6 arg7 harg7 hc0 hc1 xb wb bb prev)]
  unfold kernelRun0_C
  dsimp only
  sl_unfold_words
  rw [View.canon_unit_zero hz]
  simp only [View.readAt_eq_ld, harg3.read_unread, harg4.read_unread, harg7.read_unread, View.ld_unit_zero (S := S1024x1024) hz]

/-- and the output block is the finished accumulator (read back from its own store) plus the bias row. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (xb : Vec F S1024x1024 .f32) (wb : Vec F S1024x1024 .f32) (bb : Vec F S1x1024 .f32) (prev : Vec F S1024x1024 .f32) :
    out0_C_3 c i arg3 harg3 arg4 harg4 arg5 harg5 arg6 harg6 arg7 harg7 hc0 hc1 xb wb bb prev = k0_pay3 (k0_pay2 xb wb prev) bb := by
  unfold out0_C_3
  rw [View.read_writes_eq_canon _ _ _ (cover0_C_3 c i arg3 harg3 arg4 harg4 arg5 harg5 arg6 harg6 arg7 harg7 hc0 hc1 xb wb bb prev)]
  unfold kernelRun0_C
  dsimp only
  sl_unfold_words
  rw [View.canon_unit_zero hz]
  simp only [View.readAt_eq_ld, harg3.read_unread, harg4.read_unread, harg5.read_unread, harg7.read_unread,
    View.ld_unit_zero (S := S1024x1024) hz, View.ld_unit_zero (S := S1x1024) hz, View.readCov_unit_zero (S := S1024x1024) _ hz]

end Cert.KernelIdeal.Cases

end
-- ==== Proof.Payloads.lean ====
/-
  The body's arithmetic read at one element, over the extended reals. Each grid point multiplies a [1024, 1024] block
  of the activations by a [1024, 1024] block of the weights, contracting the second axis of both (`mk,nk->mn`), and
  adds the product into the accumulator; the conversions to bf16 on the way are the identity on the extended reals,
  and the product into a zero accumulator is the plain sum of products. At the last point of a run the bias row is
  added, broadcast along the block's rows.
-/
import proofs.«154628_j20899310862697_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Elem

open Cert.KernelIdeal Cert.KernelIdeal.Gen Idealize.ShloMosaic Idealize.ShloMosaic.ValueIdx

/-! ## The block product's operand indices: output (p, q), contraction index k ↦ (p, k) on the left, (q, k) on the right -/

theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_contr (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_contr (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into the zero accumulator, at (p, q): `Σ_k a[p, k] · b[q, k]`. -/
theorem blockProduct_apply {φ₁ φ₂ : FTy} (a : FVec Ideal S1024x1024 φ₁) (b : FVec Ideal S1024x1024 φ₂) (p q : Fin 1024) :
    matmul dot_S1024x1024_S1024x1024_S1024x1024_1_1_0_0_n_n none a b (constant S1024x1024 .f32 0x00000000#32) (ix2 p q)
      = ∑ k : Fin 1024, a (ix2 p k) * b (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_row _ _
    | ⟨1, _⟩ => exact (lhs_contr _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_row _ _
    | ⟨1, _⟩ => exact (rhs_contr _ _).trans hk)
  rw [el, er]

/-- The reset's payload is the zero block. -/
theorem reset_apply (j : S1024x1024.Idx) : k0_pay1 (F := Ideal) j = 0 := by
  unfold k0_pay1
  rw [shapeCast_self]
  exact Ideal.ofBits_zero_f32

/-- The accumulation's payload at (p, q): what the accumulator held there plus the block product. -/
theorem accumulate_apply (xb wb acc : Vec Ideal S1024x1024 .f32) (p q : Fin 1024) :
    k0_pay2 (F := Ideal) xb wb acc (ix2 p q) = acc (ix2 p q) + ∑ k : Fin 1024, xb (ix2 p k) * wb (ix2 q k) := by
  unfold k0_pay2
  rw [shapeCast_self, addf_apply, blockProduct_apply]
  rfl

/-- The epilogue's payload at (p, q): the accumulator plus the bias row's entry q. -/
theorem addBias_apply (acc : Vec Ideal S1024x1024 .f32) (brow : Vec Ideal S1x1024 .f32) (p q : Fin 1024) :
    k0_pay3 (F := Ideal) acc brow (ix2 p q) = acc (ix2 p q) + brow (ix2 (0 : Fin 1) q) := by
  unfold k0_pay3
  rw [addf_apply, shapeCast_self]
  refine congrArg (acc (ix2 p q) + ·) ?_
  exact broadcastTo_apply brow broadcasts_S1x1024_S1024x1024 (ix2 p q) (ix2 (0 : Fin 1) q) (fun a => by
    match a with
    | ⟨0, _⟩ => show 0 = if (1 : Nat) = 1 then 0 else _; rw [if_pos rfl]
    | ⟨1, _⟩ => show q.val = if (1024 : Nat) = 1 then 0 else q.val; rw [if_neg (by decide)])

end Cert.KernelIdeal.Elem

end
-- ==== Proof.Blocks.lean ====
/-
  The blocks a grid point sees, read from the arrays. The 8 × 4 × 4 grid is walked in row-major order, so point
  number `n = 16·i + 4·j + k` works on row block `i = n / 16` of the activations, row block `j = n / 4 % 4` of the
  weights, and the run `k = n % 4` of 1024 contraction indices of both; the bias row it sees is columns
  `1024·j … 1024·j + 1023` of the bias, and the output block it belongs to is block (i, j) of the result.
  So the block product a point adds to the accumulator is, entry by entry, a partial dot product of one row of
  the activations with one row of the weights over the point's run of contraction indices.
-/
import proofs.«154628_j20899310862697_1_alg».proof.Proof.Gen.KernelIdeal.Value
import proofs.«154628_j20899310862697_1_alg».proof.Proof.Spec
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Cert.DenseLinear
open Idealize.ShloMosaic.StableHlo

variable (m : (ℓ : Loc nD τ sig) → Buf (Elt Ideal) ℓ)

/-! ## The block indices of point `n`, decided over the 128 points -/

theorem idx_x : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx_w : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
theorem idx_b : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)
theorem idx_o : ∀ t : Fin cfg0.N, win0_3.index t 0 = t.val / 16 ∧ win0_3.index t 1 = t.val / 4 % 4 :=
  (by decide +kernel : ∀ t : Fin grid0.N, win0_3.index t 0 = t.val / 16 ∧ win0_3.index t 1 = t.val / 4 % 4)

/-! ## The three argument arrays and the blocks, at their literal types -/

abbrev X (c : Dev nD) : S8192x4096.Idx → EReal := m ((c : Thread nD τ).loc main_arg0)
abbrev W (c : Dev nD) : S4096x4096.Idx → EReal := m ((c : Thread nD τ).loc main_arg1)
abbrev B (c : Dev nD) : S4096.Idx → EReal := m ((c : Thread nD τ).loc main_arg2)

abbrev xblk (c : Dev nD) (t : Fin cfg0.N) : Vec Ideal S1024x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t

/-- Entry (p, k) of the activations' block at point `t` is entry (1024·i + p, 1024·k₀ + k) of the activations. -/
theorem xblk_apply (c : Dev nD) (t : Fin cfg0.N) (p k : Fin 1024) :
    xblk m c t (ix2 p k) = at2 (X m c) (t.val / 16 * 1024 + p.val) (t.val % 4 * 1024 + k.val) := by
  have hN : t.val < 128 := lt_of_lt_of_eq t.isLt N_0
  rw [at2_of_lt _ (by omega) (by omega)]
  unfold xblk iblk
  rw [View.read_apply]
  show V m c main_arg0 _ = _
  rw [V_main_arg0 m c]
  refine congrArg (m ((c : Thread nD τ).loc main_arg0)) (funext fun a => Fin.ext ?_)
  match a with
  | ⟨0, _⟩ => show win0_0.index t 0 * 1024 + 1 * p.val = t.val / 16 * 1024 + p.val; rw [(idx_x t).1]; omega
  | ⟨1, _⟩ => show win0_0.index t 1 * 1024 + 1 * k.val = t.val % 4 * 1024 + k.val; rw [(idx_x t).2]; omega

/-- Entry (q, k) of the weights' block at point `t` is entry (1024·j + q, 1024·k₀ + k) of the weights. -/
theorem wblk_apply (c : Dev nD) (t : Fin cfg0.N) (q k : Fin 1024) :
    wblk m c t (ix2 q k) = at2 (W m c) (t.val / 4 % 4 * 1024 + q.val) (t.val % 4 * 1024 + k.val) := by
  have hN : t.val < 128 := lt_of_lt_of_eq t.isLt N_0
  rw [at2_of_lt _ (by omega) (by omega)]
  unfold wblk iblk
  rw [View.read_apply]
  show V m c main_arg1 _ = _
  rw [V_main_arg1 m c]
  refine congrArg (m ((c : Thread nD τ).loc main_arg1)) (funext fun a => Fin.ext ?_)
  match a with
  | ⟨0, _⟩ => show win0_1.index t 0 * 1024 + 1 * q.val = t.val / 4 % 4 * 1024 + q.val; rw [(idx_w t).1]; omega
  | ⟨1, _⟩ => show win0_1.index t 1 * 1024 + 1 * k.val = t.val % 4 * 1024 + k.val; rw [(idx_w t).2]; omega

/-- The bias enters the region as a one-row matrix: the host reshapes [4096] to [1, 4096] first. -/
theorem bias_row (c : Dev nD) :
    (V m c main_v0 : S1x4096.Idx → EReal) = shapeCast S1x4096 (B m c) shapeCasts_S4096_S1x4096 := by
  dsimp only [Gen.V, Gen.hostOps0]
  after_results
  rfl

/-- Entry (0, q) of the bias block at point `t` is entry 1024·j + q of the bias. -/
theorem bblk_apply (c : Dev nD) (t : Fin cfg0.N) (q : Fin 1024) :
    bblk m c t (ix2 (0 : Fin 1) q) = B m c (ix1 ⟨t.val / 4 % 4 * 1024 + q.val, by have := q.isLt; omega⟩) := by
  have hN : t.val < 128 := lt_of_lt_of_eq t.isLt N_0
  unfold bblk iblk
  rw [View.read_apply]
  show (V m c main_v0 : S1x4096.Idx → EReal) _ = _
  rw [bias_row m c]
  refine shapeCast_apply (B m c) shapeCasts_S4096_S1x4096 _ _ ?_
  rw [Shape.rowMajor_val_one, Shape.rowMajor_val_two]
  show t.val / 4 % 4 * 1024 + q.val = (win0_2.index t 0 * 1 + 1 * 0) * 4096 + (win0_2.index t 1 * 1024 + 1 * q.val)
  rw [(idx_b t).1, (idx_b t).2]
  omega

/-- THE BLOCK PRODUCT IS A PARTIAL DOT PRODUCT: at point `t`, entry (p, q) of the product of the two blocks is the
    part of (row 1024·i + p of the activations) · (row 1024·j + q of the weights) over the point's run of
    contraction indices. -/
theorem blockDot (c : Dev nD) (t : Fin cfg0.N) (p q : Fin 1024) :
    ∑ k : Fin 1024, xblk m c t (ix2 p k) * wblk m c t (ix2 q k)
      = partialDot (X m c) (W m c) (t.val / 16 * 1024 + p.val) (t.val / 4 % 4 * 1024 + q.val) (t.val % 4) :=
  Finset.sum_congr rfl fun k _ => by rw [xblk_apply, wblk_apply]

end Cert.KernelIdeal.Blocks

end
-- ==== Proof.Accumulator.lean ====
/-
  The accumulator over a run of four grid points, and the output block written at the run's end. Points
  `4·g, 4·g + 1, 4·g + 2, 4·g + 3` share the output block (i, j) and differ in the run k of contraction indices: the
  first resets the accumulator and adds its block product, the others add theirs, so after the last the accumulator's
  entry (p, q) is the sum over the four runs of the partial dot products of row `1024·i + p` of the activations with
  row `1024·j + q` of the weights — the whole dot product, regrouped — and the block written back adds the bias.
-/
import proofs.«154628_j20899310862697_1_alg».proof.Proof.Pieces
import proofs.«154628_j20899310862697_1_alg».proof.Proof.Payloads
import proofs.«154628_j20899310862697_1_alg».proof.Proof.Blocks

set_option maxRecDepth 16384

noncomputable section

namespace Cert.KernelIdeal.Acc

open Cert.KernelIdeal Cert.KernelIdeal.Gen Cert.KernelIdeal.Value Cert.KernelIdeal.Cases Cert.KernelIdeal.Elem Cert.KernelIdeal.Blocks
open Idealize.ShloMosaic Idealize.ShloMosaic.TcCoe Idealize.SL.Sem Idealize.ShloMosaic.ValueIdx Cert.DenseLinear

variable (m : (ℓ : Loc nD τ sig) → Buf (Elt Ideal) ℓ)

/-- What point number `n` adds to entry `j = (p, q)` of the accumulator: the partial dot product of row
    `1024·(n / 16) + p` of the activations with row `1024·(n / 4 % 4) + q` of the weights over run `n % 4`. -/
def addend (c : Dev nD) (n : ℕ) (j : S1024x1024.Idx) : EReal :=
  partialDot (X m c) (W m c) (n / 16 * 1024 + (j 0).val) (n / 4 % 4 * 1024 + (j 1).val) (n % 4)

/-- At the first point of a run the accumulator is left at zero plus that point's addend, whatever it held. -/
theorem step_first (c : Dev nD) (n : ℕ) (h : n < cfg0.N) (h0 : n % 4 = 0) (acc : Vec Ideal S1024x1024 .f32)
    (j : S1024x1024.Idx) : scAt0_0 m c n h acc j = 0 + addend m c n j := by
  obtain ⟨p, q, rfl⟩ : ∃ (p q : Fin 1024), j = ix2 p q := ⟨j 0, j 1, eq_ix2 j⟩
  have h1 : ¬n % 4 = 3 := by omega
  unfold scAt0_0
  rw [dif_pos h0, dif_neg h1]
  refine (congrFun (acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun h' => h1 ((hcond0_1 ⟨n, h⟩).mp h')) (xblk m c ⟨n, h⟩) (wblk m c ⟨n, h⟩) (bblk m c ⟨n, h⟩)) (ix2 p q)).trans ?_
  refine (accumulate_apply (xblk m c ⟨n, h⟩) (wblk m c ⟨n, h⟩) (k0_pay1 (F := Ideal)) p q).trans ?_
  rw [reset_apply, blockDot]
  rfl

/-- At every later point of the run it is left at what it held plus that point's addend. -/
theorem step_next (c : Dev nD) (n : ℕ) (h : n < cfg0.N) (h0 : ¬n % 4 = 0) (acc : Vec Ideal S1024x1024 .f32)
    (j : S1024x1024.Idx) : scAt0_0 m c n h acc j = acc j + addend m c n j := by
  obtain ⟨p, q, rfl⟩ : ∃ (p q : Fin 1024), j = ix2 p q := ⟨j 0, j 1, eq_ix2 j⟩
  unfold scAt0_0
  rw [dif_neg h0]
  by_cases h1 : n % 4 = 3
  · rw [dif_pos h1]
    refine (congrFun (acc_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun h' => h0 ((hcond0_0 ⟨n, h⟩).mp h')) ((hcond0_1 ⟨n, h⟩).mpr h1) (xblk m c ⟨n, h⟩) (wblk m c ⟨n, h⟩) (bblk m c ⟨n, h⟩) acc) (ix2 p q)).trans ?_
    refine (accumulate_apply (xblk m c ⟨n, h⟩) (wblk m c ⟨n, h⟩) acc p q).trans ?_
    rw [blockDot]
    rfl
  · rw [dif_neg h1]
    refine (congrFun (acc_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun h' => h0 ((hcond0_0 ⟨n, h⟩).mp h')) (fun h' => h1 ((hcond0_1 ⟨n, h⟩).mp h')) (xblk m c ⟨n, h⟩) (wblk m c ⟨n, h⟩) (bblk m c ⟨n, h⟩) acc) (ix2 p q)).trans ?_
    refine (accumulate_apply (xblk m c ⟨n, h⟩) (wblk m c ⟨n, h⟩) acc p q).trans ?_
    rw [blockDot]
    rfl

/-- THE ACCUMULATOR after point `t`: the addends of the points of `t`'s run up to `t`, summed. -/
theorem acc_eq (c : Dev nD) (t : Fin cfg0.N) (j : S1024x1024.Idx) :
    (outsAt0 m c t.val t.isLt).2 j = 0 + ∑ s ∈ Finset.range (t.val % 4 + 1), addend m c (4 * (t.val / 4) + s) j := by
  rw [soutsAt0_0_eq m c t]
  exact Pipeline.accAt_add_apply (ι := S1024x1024.Idx) (β := EReal) _ _ (fun _ => 0) (addend m c) (4 * (t.val / 4)) 3
    (fun h i => step_first m c _ h (by omega) _ i)
    (fun n h acc i hb he => step_next m c n h (by omega) acc i)
    (t.val % 4) (by omega) _ j

/-- At the last point of a run the output block is the finished accumulator plus the bias row. -/
theorem out_at_last (c : Dev nD) (t : Fin cfg0.N) (h0 : ¬t.val % 4 = 0) (h3 : t.val % 4 = 3) :
    (outsAt0 m c t.val t.isLt).1 = k0_pay3 (outsAt0 m c t.val t.isLt).2 (bblk m c t) := by
  rw [outsAt0_C m c t h0 h3]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h3) (xblk m c t) (wblk m c t) (bblk m c t) _).trans
    (congrArg (fun a => k0_pay3 a (bblk m c t)) (acc_last (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h3) (xblk m c t) (wblk m c t) (bblk m c t) _).symm)

/-- Row `1024·i + p` and column `1024·j + q` of the result, for a point of block (i, j) and an entry (p, q) of the block,
    are inside the result. -/
theorem row_lt (t : Fin cfg0.N) (y : S1024x1024.Idx) : t.val / 16 * 1024 + (y 0).val < 8192 := by
  have h1 : (y 0).val < 1024 := (y 0).isLt
  have h2 : t.val < 128 := lt_of_lt_of_eq t.isLt N_0
  omega
theorem col_lt (t : Fin cfg0.N) (y : S1024x1024.Idx) : t.val / 4 % 4 * 1024 + (y 1).val < 4096 := by
  have h1 : (y 1).val < 1024 := (y 1).isLt
  omega

/-- THE OUTPUT BLOCK written back after a run: entry (p, q) is the linear layer's entry
    (1024·i + p, 1024·j + q). -/
theorem out_entry (c : Dev nD) (t : Fin cfg0.N) (h3 : t.val % 4 = 3) (y : S1024x1024.Idx) :
    (outsAt0 m c t.val t.isLt).1 y
      = linear (X m c) (W m c) (B m c)
          (ix2 ⟨t.val / 16 * 1024 + (y 0).val, row_lt t y⟩ ⟨t.val / 4 % 4 * 1024 + (y 1).val, col_lt t y⟩) := by
  obtain ⟨p, q, rfl⟩ : ∃ (p q : Fin 1024), y = ix2 p q := ⟨y 0, y 1, eq_ix2 y⟩
  have h0 : ¬t.val % 4 = 0 := by omega
  rw [out_at_last m c t h0 h3]
  refine (addBias_apply _ (bblk m c t) p q).trans ?_
  rw [acc_eq m c t (ix2 p q), bblk_apply, linear_eq_partials, h3, zero_add]
  refine congrArg₂ (· + ·) (Finset.sum_congr rfl fun s hs => ?_) rfl
  have hs' : s < 4 := Finset.mem_range.mp hs
  show partialDot _ _ ((4 * (t.val / 4) + s) / 16 * 1024 + p.val) ((4 * (t.val / 4) + s) / 4 % 4 * 1024 + q.val) ((4 * (t.val / 4) + s) % 4)
    = partialDot _ _ (t.val / 16 * 1024 + p.val) (t.val / 4 % 4 * 1024 + q.val) s
  congr 1 <;> omega

end Cert.KernelIdeal.Acc

end
-- ==== Proof.Result.lean ====
/-
  The kernel's result array. The output's 8 × 4 blocks of [1024, 1024] tile the [8192, 4096] result; block (i, j) is
  written back once, after the last point of its run, and holds the linear layer's entries there; every entry of the
  result lies in exactly one such block, so after the run the result array is the linear layer of the three arguments.
-/
import proofs.«154628_j20899310862697_1_alg».proof.Proof.Accumulator

set_option maxRecDepth 16384

noncomputable section

namespace Cert.KernelIdeal.Result

open Cert.KernelIdeal Cert.KernelIdeal.Gen Cert.KernelIdeal.Value Cert.KernelIdeal.Blocks Cert.KernelIdeal.Acc
open Idealize.ShloMosaic Idealize.ShloMosaic.TcCoe Idealize.SL.Sem Idealize.ShloMosaic.ValueIdx Cert.DenseLinear
open Idealize.ShloMosaic.Pipeline (Dat)

variable (m : (ℓ : Loc nD τ sig) → Buf (Elt Ideal) ℓ) (ρ : Dev nD → PrngReg)

/-- WHAT A WRITE-BACK WRITES: at a point that writes the output's block back, the block of the linear layer. -/
theorem flushed_eq (c : Dev nD) (t : Fin cfg0.N) (hf : (cfg0.win 3).flush t = true) :
    (dats m 0 c).flushed 3 t = ((cfg0.win 3).blk t).view.read (Elt Ideal) (linear (X m c) (W m c) (B m c)) := by
  have h3 : t.val % 4 = 3 := (flush0_3 t).mp hf
  show (cfg0.win 3).cut (grid0.coords t) ((dats m 0 c).after 3 t) = _
  rw [after0_3]
  funext y
  rw [View.read_apply]
  refine (out_entry m c t h3 y).trans ?_
  refine congrArg (linear (X m c) (W m c) (B m c)) (funext fun a => Fin.ext ?_)
  match a with
  | ⟨0, _⟩ => show t.val / 16 * 1024 + (y 0).val = win0_3.index t 0 * 1024 + 1 * (y 0).val; rw [(idx_o t).1]; omega
  | ⟨1, _⟩ => show t.val / 4 % 4 * 1024 + (y 1).val = win0_3.index t 1 * 1024 + 1 * (y 1).val; rw [(idx_o t).2]; omega

/-- An entry of the result is in point `t`'s output block iff each coordinate is in the block's range on its axis. -/
theorem mem_blk (t : Fin cfg0.N) (i : S8192x4096.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- THE BLOCKS TILE THE RESULT: entry (r, o) lies in the block written back after point
    `16·(r / 1024) + 4·(o / 1024) + 3`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, ht⟩ : ∃ t : Fin cfg0.N, t.val = (i 0).val / 1024 * 16 + (i 1).val / 1024 * 4 + 3 :=
    ⟨⟨(i 0).val / 1024 * 16 + (i 1).val / 1024 * 4 + 3, by rw [hN]; omega⟩, rfl⟩
  refine ⟨t, (flush0_3 t).mpr (by omega), ?_⟩
  rw [mem_blk]
  intro a
  match a with
  | ⟨0, _⟩ =>
    show win0_3.index t 0 * 1024 ≤ (i 0).val ∧ (i 0).val < win0_3.index t 0 * 1024 + 1024
    rw [(idx_o t).1]; omega
  | ⟨1, _⟩ =>
    show win0_3.index t 1 * 1024 ≤ (i 1).val ∧ (i 1).val < win0_3.index t 1 * 1024 + 1024
    rw [(idx_o t).2]; omega

/-- THE RESULT ARRAY after the run is the linear layer of the arguments. -/
theorem final (c : Dev nD) : (dats m 0 c).arrAt 3 cfg0.N = linear (X m c) (W m c) (B m c) :=
  (dats m 0 c).arrAt_eq_of_cover 3 (linear (X m c) (W m c) (B m c)) (flushed_eq m c) covered

/-- The kernel's run, read: every weakly fair execution terminates with the result array at the linear layer of the
    arguments and the arguments unchanged. -/
theorem run : θ_run defs (onTc (τ := τ) (main (F := Ideal))) ⟨m, fun _ => 0, ρ⟩ fun r => ∀ c : Dev nD,
      r.2.mem ((c : Thread nD τ).loc main_v1) = linear (X m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Result

end
-- ==== Proof.lean ====
/-
  The proof of `Cert.Claim`: a K-blocked matrix product with a bias against one contraction.

  The kernel computes `y = x · wᵀ + b` for `x : [8192, 4096]`, `w : [4096, 4096]`, `b : [4096]` on an 8 × 4 × 4 grid: output
  block (i, j) of [1024, 1024] is accumulated over four grid points k, each adding the product of block (i, k) of `x`
  with block (j, k) of `w` (contracting the second axis of both) into an accumulator that the first point resets to
  zero; the last point adds the bias row and writes the block out. The reference is the single contraction
  `Σ_k x[r, k] · w[o, k]` plus the bias broadcast along the rows.

  Over the extended reals the two are one function: the conversions to bf16 before the product are the identity,
  the product into a zero accumulator is the plain sum of products, `0 + a = a`, and the kernel's result
  `((0 + P₀) + P₁ + P₂ + P₃) + b`, with `P_k` the partial sum over the contraction indices `1024·k … 1024·k + 1023`, is the full
  sum regrouped — addition of extended reals is commutative and associative, so this needs nothing of the inputs
  (the precondition is not used). Proof/Spec.lean states the layer and the regrouping; Proof/RefLinear.lean reads
  the reference's result at an index; Proof/Pieces.lean, Proof/Payloads.lean and Proof/Blocks.lean read what one grid
  point leaves, at an index, in terms of the argument arrays; Proof/Accumulator.lean sums a run of four points;
  Proof/Result.lean reads the result array block by block. The idealization rewrote nothing, so the kernel's
  idealized form is its own text and `preserves` is trivial.
-/
import proofs.«154628_j20899310862697_1_alg».proof.Defs
import proofs.«154628_j20899310862697_1_alg».proof.Proof.Gen.Kernel
import proofs.«154628_j20899310862697_1_alg».proof.Proof.Gen.Kernel.Skeleton
import proofs.«154628_j20899310862697_1_alg».proof.Proof.Gen.Kernel.Launch
import proofs.«154628_j20899310862697_1_alg».proof.Proof.Gen.Kernel.Points
import proofs.«154628_j20899310862697_1_alg».proof.Proof.Gen.Kernel.Frame
import proofs.«154628_j20899310862697_1_alg».proof.Proof.Gen.KernelIdeal
import proofs.«154628_j20899310862697_1_alg».proof.Proof.Gen.KernelIdeal.Skeleton
import proofs.«154628_j20899310862697_1_alg».proof.Proof.Gen.KernelIdeal.Launch
import proofs.«154628_j20899310862697_1_alg».proof.Proof.Gen.KernelIdeal.Points
import proofs.«154628_j20899310862697_1_alg».proof.Proof.Gen.KernelIdeal.Frame
import proofs.«154628_j20899310862697_1_alg».proof.Proof.Gen.ReferenceIdeal
import proofs.«154628_j20899310862697_1_alg».proof.Proof.Gen.KernelIdeal.Value
import proofs.«154628_j20899310862697_1_alg».proof.Proof.Gen.ReferenceIdeal.Run
import proofs.«154628_j20899310862697_1_alg».proof.Proof.Gen.ReferenceIdeal.Read
import proofs.«154628_j20899310862697_1_alg».proof.Proof.Gen.Pre_finite_inputs
import proofs.«154628_j20899310862697_1_alg».proof.Proof.RefLinear
import proofs.«154628_j20899310862697_1_alg».proof.Proof.Result
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is four host operations in a line: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both programs end with the result array at the linear layer of their arguments, which agree. -/
theorem algebraic : Cert.algebraic_KernelIdeal_ReferenceIdeal := by
  intro m ρ m' ρ' _ hagree
  refine ⟨fun c => Cert.DenseLinear.linear (Cert.KernelIdeal.Blocks.X m c) (Cert.KernelIdeal.Blocks.W m c) (Cert.KernelIdeal.Blocks.B m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact Cert.ReferenceIdeal.IsLinear.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
